-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S4x2048x1024 .f32) (main_arg1 : FVec F S3072x1024 .f32) (main_arg2 : FVec F S3072 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S4x2048x1024 : Shape := ⟨3, ![4, 2048, 1024]⟩
abbrev S3072x1024 : Shape := ⟨2, ![3072, 1024]⟩
abbrev S3072 : Shape := ⟨1, ![3072]⟩
abbrev S4x16x2048x64 : Shape := ⟨4, ![4, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S192x1024 : Shape := ⟨2, ![192, 1024]⟩
abbrev S192 : Shape := ⟨1, ![192]⟩
abbrev S512x192 : Shape := ⟨2, ![512, 192]⟩
abbrev S1x192 : Shape := ⟨2, ![1, 192]⟩
abbrev S512x64 : Shape := ⟨2, ![512, 64]⟩
abbrev S1x1x512x64 : Shape := ⟨4, ![1, 1, 512, 64]⟩

abbrev nBuf : Space → Nat
  | .hbm => 7
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S3072x1024, .bf16⟩
  | .hbm, ⟨4, _⟩ => ⟨S4x16x2048x64, .f32⟩
  | .hbm, ⟨5, _⟩ => ⟨S4x16x2048x64, .f32⟩
  | .hbm, ⟨6, _⟩ => ⟨S4x16x2048x64, .f32⟩
  | .local _ .vmem, ⟨0, _⟩ => ⟨S1x512x1024, .f32⟩
  | .local _ .vmem, ⟨1, _⟩ => ⟨S1x512x1024, .f32⟩
  | .local _ .vmem, ⟨2, _⟩ => ⟨S3072x1024, .bf16⟩
  | .local _ .vmem, ⟨3, _⟩ => ⟨S3072, .f32⟩
  | .local _ .vmem, ⟨4, _⟩ => ⟨S1x16x512x64, .f32⟩
  | .local _ .vmem, ⟨5, _⟩ => ⟨S1x16x512x64, .f32⟩
  | .local _ .vmem, ⟨6, _⟩ => ⟨S1x16x512x64, .f32⟩
  | .local _ .vmem, ⟨7, _⟩ => ⟨S1x16x512x64, .f32⟩
  | .local _ .vmem, ⟨8, _⟩ => ⟨S1x16x512x64, .f32⟩
  | .local _ .vmem, ⟨9, _⟩ => ⟨S1x16x512x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S3072_S3072_0 : ∀ a, (![0] : Fin 1 → Nat) a + S3072.size a ≤ S3072.size a
  h_S3072 : 0 < S3072.numel
  slices_S3072x1024_o0_0_S192x1024 : S3072x1024.Slices ![0, 0] S192x1024
  slices_S3072_o0_S192 : S3072.Slices ![0] S192
  shapeCasts_S192_S1x192 : S192.ShapeCasts S1x192
  broadcasts_S1x192_S512x192 : S1x192.Broadcasts S512x192
  slices_S512x192_o0_0_S512x64 : S512x192.Slices ![0, 0] S512x64
  inb_S1x16x512x64_S1x1x512x64_0_0_0_0 : ∀ a, (![0, 0, 0, 0] : Fin 4 → Nat) a + S1x1x512x64.size a ≤ S1x16x512x64.size a
  h_S1x1x512x64 : 0 < S1x1x512x64.numel
  shapeCasts_S1x1x512x64_S512x64 : S1x1x512x64.ShapeCasts S512x64
  shapeCasts_S512x64_S1x1x512x64 : S512x64.ShapeCasts S1x1x512x64
  slices_S512x192_o0_64_S512x64 : S512x192.Slices ![0, 64] S512x64
  slices_S512x192_o0_128_S512x64 : S512x192.Slices ![0, 128] S512x64
  slices_S3072x1024_o192_0_S192x1024 : S3072x1024.Slices ![192, 0] S192x1024
  slices_S3072_o192_S192 : S3072.Slices ![192] S192
  inb_S1x16x512x64_S1x1x512x64_0_1_0_0 : ∀ a, (![0, 1, 0, 0] : Fin 4 → Nat) a + S1x1x512x64.size a ≤ S1x16x512x64.size a
  slices_S3072x1024_o384_0_S192x1024 : S3072x1024.Slices ![384, 0] S192x1024
  slices_S3072_o384_S192 : S3072.Slices ![384] S192
  inb_S1x16x512x64_S1x1x512x64_0_2_0_0 : ∀ a, (![0, 2, 0, 0] : Fin 4 → Nat) a + S1x1x512x64.size a ≤ S1x16x512x64.size a
  slices_S3072x1024_o576_0_S192x1024 : S3072x1024.Slices ![576, 0] S192x1024
  slices_S3072_o576_S192 : S3072.Slices ![576] S192
  inb_S1x16x512x64_S1x1x512x64_0_3_0_0 : ∀ a, (![0, 3, 0, 0] : Fin 4 → Nat) a + S1x1x512x64.size a ≤ S1x16x512x64.size a
  slices_S3072x1024_o768_0_S192x1024 : S3072x1024.Slices ![768, 0] S192x1024
  slices_S3072_o768_S192 : S3072.Slices ![768] S192
  inb_S1x16x512x64_S1x1x512x64_0_4_0_0 : ∀ a, (![0, 4, 0, 0] : Fin 4 → Nat) a + S1x1x512x64.size a ≤ S1x16x512x64.size a
  slices_S3072x1024_o960_0_S192x1024 : S3072x1024.Slices ![960, 0] S192x1024
  slices_S3072_o960_S192 : S3072.Slices ![960] S192
  inb_S1x16x512x64_S1x1x512x64_0_5_0_0 : ∀ a, (![0, 5, 0, 0] : Fin 4 → Nat) a + S1x1x512x64.size a ≤ S1x16x512x64.size a
  slices_S3072x1024_o1152_0_S192x1024 : S3072x1024.Slices ![1152, 0] S192x1024
  slices_S3072_o1152_S192 : S3072.Slices ![1152] S192
  inb_S1x16x512x64_S1x1x512x64_0_6_0_0 : ∀ a, (![0, 6, 0, 0] : Fin 4 → Nat) a + S1x1x512x64.size a ≤ S1x16x512x64.size a
  slices_S3072x1024_o1344_0_S192x1024 : S3072x1024.Slices ![1344, 0] S192x1024
  slices_S3072_o1344_S192 : S3072.Slices ![1344] S192
  inb_S1x16x512x64_S1x1x512x64_0_7_0_0 : ∀ a, (![0, 7, 0, 0] : Fin 4 → Nat) a + S1x1x512x64.size a ≤ S1x16x512x64.size a
  slices_S3072x1024_o1536_0_S192x1024 : S3072x1024.Slices ![1536, 0] S192x1024
  slices_S3072_o1536_S192 : S3072.Slices ![1536] S192
  inb_S1x16x512x64_S1x1x512x64_0_8_0_0 : ∀ a, (![0, 8, 0, 0] : Fin 4 → Nat) a + S1x1x512x64.size a ≤ S1x16x512x64.size a
  slices_S3072x1024_o1728_0_S192x1024 : S3072x1024.Slices ![1728, 0] S192x1024
  slices_S3072_o1728_S192 : S3072.Slices ![1728] S192
  inb_S1x16x512x64_S1x1x512x64_0_9_0_0 : ∀ a, (![0, 9, 0, 0] : Fin 4 → Nat) a + S1x1x512x64.size a ≤ S1x16x512x64.size a
  slices_S3072x1024_o1920_0_S192x1024 : S3072x1024.Slices ![1920, 0] S192x1024
  slices_S3072_o1920_S192 : S3072.Slices ![1920] S192
  inb_S1x16x512x64_S1x1x512x64_0_10_0_0 : ∀ a, (![0, 10, 0, 0] : Fin 4 → Nat) a + S1x1x512x64.size a ≤ S1x16x512x64.size a
  slices_S3072x1024_o2112_0_S192x1024 : S3072x1024.Slices ![2112, 0] S192x1024
  slices_S3072_o2112_S192 : S3072.Slices ![2112] S192
  inb_S1x16x512x64_S1x1x512x64_0_11_0_0 : ∀ a, (![0, 11, 0, 0] : Fin 4 → Nat) a + S1x1x512x64.size a ≤ S1x16x512x64.size a
  slices_S3072x1024_o2304_0_S192x1024 : S3072x1024.Slices ![2304, 0] S192x1024
  slices_S3072_o2304_S192 : S3072.Slices ![2304] S192
  inb_S1x16x512x64_S1x1x512x64_0_12_0_0 : ∀ a, (![0, 12, 0, 0] : Fin 4 → Nat) a + S1x1x512x64.size a ≤ S1x16x512x64.size a
  slices_S3072x1024_o2496_0_S192x1024 : S3072x1024.Slices ![2496, 0] S192x1024
  slices_S3072_o2496_S192 : S3072.Slices ![2496] S192
  inb_S1x16x512x64_S1x1x512x64_0_13_0_0 : ∀ a, (![0, 13, 0, 0] : Fin 4 → Nat) a + S1x1x512x64.size a ≤ S1x16x512x64.size a
  slices_S3072x1024_o2688_0_S192x1024 : S3072x1024.Slices ![2688, 0] S192x1024
  slices_S3072_o2688_S192 : S3072.Slices ![2688] S192
  inb_S1x16x512x64_S1x1x512x64_0_14_0_0 : ∀ a, (![0, 14, 0, 0] : Fin 4 → Nat) a + S1x1x512x64.size a ≤ S1x16x512x64.size a
  slices_S3072x1024_o2880_0_S192x1024 : S3072x1024.Slices ![2880, 0] S192x1024
  slices_S3072_o2880_S192 : S3072.Slices ![2880] S192
  inb_S1x16x512x64_S1x1x512x64_0_15_0_0 : ∀ a, (![0, 15, 0, 0] : Fin 4 → Nat) a + S1x1x512x64.size a ≤ S1x16x512x64.size a
  dot_S512x1024_S192x1024_S512x192_1_1_0_0_n_n_wf : DotDims.WF S512x1024 S192x1024 S512x192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x64.size a ≤ S4x16x2048x64.size a
  hwx0_3 : ∀ i : grid0.Coords, EltTy.bits .f32 = 32 ∨ (Rect.block (s := S4x16x2048x64) S1x16x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512x64.size a ≤ S4x16x2048x64.size a
  hwx0_4 : ∀ i : grid0.Coords, EltTy.bits .f32 = 32 ∨ (Rect.block (s := S4x16x2048x64) S1x16x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x512x64.size a ≤ S4x16x2048x64.size a
  hwx0_5 : ∀ i : grid0.Coords, EltTy.bits .f32 = 32 ∨ (Rect.block (s := S4x16x2048x64) S1x16x512x64.size (cc0_transform_5 i) (hinb0_5 i)).WholeWords (EltTy.packing .f32)

variable [Facts₀]

def dot_S512x1024_S192x1024_S512x192_1_1_0_0_n_n : DotDims S512x1024 S192x1024 S512x192 where
  lhsContracting := [1]
  rhsContracting := [1]
  lhsNonContracting := [0]
  rhsNonContracting := [0]
  lhsBatch := []
  rhsBatch := []
  wf := dot_S512x1024_S192x1024_S512x192_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x16x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x16x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x16x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S4x2048x3072 : Shape := ⟨3, ![4, 2048, 3072]⟩
abbrev S1x1x3072 : Shape := ⟨3, ![1, 1, 3072]⟩
abbrev S4x2048x16x192 : Shape := ⟨4, ![4, 2048, 16, 192]⟩
abbrev S4x16x2048x192 : Shape := ⟨4, ![4, 16, 2048, 192]⟩
abbrev S4x16x2048x64 : Shape := ⟨4, ![4, 16, 2048, 64]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S4x2048x3072, .f32⟩
  | .hbm, ⟨4, _⟩ => ⟨S1x1x3072, .f32⟩
  | .hbm, ⟨5, _⟩ => ⟨S4x2048x3072, .f32⟩
  | .hbm, ⟨6, _⟩ => ⟨S4x2048x3072, .f32⟩
  | .hbm, ⟨7, _⟩ => ⟨S4x2048x16x192, .f32⟩
  | .hbm, ⟨8, _⟩ => ⟨S4x16x2048x192, .f32⟩
  | .hbm, ⟨9, _⟩ => ⟨S4x16x2048x64, .f32⟩
  | .hbm, ⟨10, _⟩ => ⟨S4x16x2048x64, .f32⟩
  | .hbm, ⟨11, _⟩ => ⟨S4x16x2048x64, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  shapeCasts_S4x2048x3072_S4x2048x16x192 : S4x2048x3072.ShapeCasts S4x2048x16x192
  transposes_S4x2048x16x192_S4x16x2048x192_0_2_1_3 : S4x2048x16x192.Transposes [0, 2, 1, 3] S4x16x2048x192
  slices_S4x16x2048x192_S4x16x2048x64_0_0_0_0 : S4x16x2048x192.Slices ![0, 0, 0, 0] S4x16x2048x64
  slices_S4x16x2048x192_S4x16x2048x64_0_0_0_64 : S4x16x2048x192.Slices ![0, 0, 0, 64] S4x16x2048x64
  slices_S4x16x2048x192_S4x16x2048x64_0_0_0_128 : S4x16x2048x192.Slices ![0, 0, 0, 128] S4x16x2048x64
  dot_S4x2048x1024_S3072x1024_S4x2048x3072_2_1_01_0_n_n_wf : DotDims.WF S4x2048x1024 S3072x1024 S4x2048x3072 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf

class Facts : Prop extends Facts₀ where

variable [Facts]
-- ==== Proof.HeadMatmul.lean ====
/-
  One head's matrix product, read at an entry.

  Each head multiplies the sequence tile X : [512, 1024] by a 192-row slab Y : [192, 1024] of the weights, contracting
  the shared axis of length 1024 (the slab is used transposed), into an accumulator of zeros. On the extended reals
  the entry at row r, column c is the plain sum

      (X · Yᵀ)[r, c] = Σ_k X[r, k] · Y[c, k],

  the zero accumulator adding nothing. The four coordinate facts say which operand coordinate each output / contraction
  coordinate lands on; the sum over the one-axis contraction index is re-indexed over k : Fin 1024.
-/
import proofs.«140509_j19722489823947_1_alg».proof.Proof.Gen.KernelIdeal
import Idealize.ShloMosaic.Lib.ValueIdx
import Idealize.ShloMosaic.PureOps.Ideal.Laws

noncomputable section

namespace Cert.KernelIdeal.Head

open Cert.KernelIdeal Cert.KernelIdeal.Gen Idealize.ShloMosaic Idealize.ShloMosaic.ValueIdx

/-- Row coordinate of the left operand: the output's row. -/
theorem lhs_head_0 (i : S512x192.Idx) (q : dot_S512x1024_S192x1024_S512x192_1_1_0_0_n_n.contr.Idx) :
    (dot_S512x1024_S192x1024_S512x192_1_1_0_0_n_n.lhsIdx i q 0).val = (i 0).val := by
  unfold DotDims.lhsIdx
  rw [dif_neg (show ¬(0 : Fin S512x1024.rank) ∈ dot_S512x1024_S192x1024_S512x192_1_1_0_0_n_n.lhsBatch by decide), dif_pos (show (0 : Fin S512x1024.rank) ∈ dot_S512x1024_S192x1024_S512x192_1_1_0_0_n_n.lhsNonContracting by decide)]
  rfl
/-- Column coordinate of the left operand: the contraction index. -/
theorem lhs_head_1 (i : S512x192.Idx) (q : dot_S512x1024_S192x1024_S512x192_1_1_0_0_n_n.contr.Idx) :
    (dot_S512x1024_S192x1024_S512x192_1_1_0_0_n_n.lhsIdx i q 1).val = (q ⟨0, by decide⟩).val :=
  dot_S512x1024_S192x1024_S512x192_1_1_0_0_n_n.lhsIdx_val_of_single rfl i q
/-- Row coordinate of the right operand (the slab): the output's column. -/
theorem rhs_head_0 (i : S512x192.Idx) (q : dot_S512x1024_S192x1024_S512x192_1_1_0_0_n_n.contr.Idx) :
    (dot_S512x1024_S192x1024_S512x192_1_1_0_0_n_n.rhsIdx i q 0).val = (i 1).val := by
  unfold DotDims.rhsIdx
  rw [dif_neg (show ¬(0 : Fin S192x1024.rank) ∈ dot_S512x1024_S192x1024_S512x192_1_1_0_0_n_n.rhsBatch by decide), dif_pos (show (0 : Fin S192x1024.rank) ∈ dot_S512x1024_S192x1024_S512x192_1_1_0_0_n_n.rhsNonContracting by decide)]
  rfl
/-- Column coordinate of the right operand: the contraction index. -/
theorem rhs_head_1 (i : S512x192.Idx) (q : dot_S512x1024_S192x1024_S512x192_1_1_0_0_n_n.contr.Idx) :
    (dot_S512x1024_S192x1024_S512x192_1_1_0_0_n_n.rhsIdx i q 1).val = (q ⟨0, by decide⟩).val :=
  dot_S512x1024_S192x1024_S512x192_1_1_0_0_n_n.rhsIdx_val_of_single rfl i q

/-- The head's product into zeros at entry (r, c): the sum over k of X[r, k] · Y[c, k]. -/
theorem matmul_zero_apply (X : FVec Ideal S512x1024 .bf16) (Y : FVec Ideal S192x1024 .bf16) (r : Fin 512) (c : Fin 192) :
    matmul (F := Ideal) dot_S512x1024_S192x1024_S512x192_1_1_0_0_n_n none X Y (constant (F := Ideal) S512x192 .f32 0x00000000#32) (ix2 r c)
      = ∑ k : Fin 1024, X (ix2 r k) * Y (ix2 c k) := by
  show FloatOps.matmul _ _ _ _ _ _ = _
  rw [Ideal.matmul_constant_zero_apply, ← Equiv.sum_comp (ValueIdx.contrEquiv1 dot_S512x1024_S192x1024_S512x192_1_1_0_0_n_n 1024 rfl rfl).symm]
  refine Finset.sum_congr rfl fun k _ => ?_
  have hk := ValueIdx.contrEquiv1_symm_val dot_S512x1024_S192x1024_S512x192_1_1_0_0_n_n 1024 rfl rfl k
  have el : dot_S512x1024_S192x1024_S512x192_1_1_0_0_n_n.lhsIdx (ix2 r c) ((ValueIdx.contrEquiv1 dot_S512x1024_S192x1024_S512x192_1_1_0_0_n_n 1024 rfl rfl).symm k) = ix2 r k := funext fun a => Fin.ext (by
    match a with
    | ⟨0, _⟩ => exact lhs_head_0 _ _
    | ⟨1, _⟩ => exact (lhs_head_1 _ _).trans hk)
  have er : dot_S512x1024_S192x1024_S512x192_1_1_0_0_n_n.rhsIdx (ix2 r c) ((ValueIdx.contrEquiv1 dot_S512x1024_S192x1024_S512x192_1_1_0_0_n_n 1024 rfl rfl).symm k) = ix2 c k := funext fun a => Fin.ext (by
    match a with
    | ⟨0, _⟩ => exact rhs_head_0 _ _
    | ⟨1, _⟩ => exact (rhs_head_1 _ _).trans hk)
  rw [el, er]

end Cert.KernelIdeal.Head

end
-- ==== Proof.HeadPiece.lean ====
/-
  What one store of the kernel body writes, as a function of the body's three loads.

  For head h the body takes rows 192·h … 192·h + 191 of the weights and of the bias, forms the [512, 192] tile
  y = X · slabᵀ + bias-row (the bias broadcast down the 512 rows), and stores columns co … co + 63 of y, recast to
  [1, 1, 512, 64], into the query (co = 0), key (co = 64) or value (co = 128) buffer. `headPiece o co` is that tree of
  operations with the row offset o and the column offset co as parameters, so that all 48 stores are instances of it.

  Read on the extended reals at [0, 0, r, e]:

      headPiece o co X Wf b [0, 0, r, e] = Σ_k X[r, k] · Wf[o + co + e, k] + b[o + co + e].

  The slices shift a coordinate by their offset, the casts and the broadcast only re-lay values, and the product into
  zeros is the plain sum (HeadMatmul).
-/
import proofs.«140509_j19722489823947_1_alg».proof.Proof.HeadMatmul
import Idealize.ShloMosaic.Lib.Pipeline.Value

noncomputable section

namespace Cert.KernelIdeal.Head

open Cert.KernelIdeal Cert.KernelIdeal.Gen Idealize.ShloMosaic Idealize.ShloMosaic.ValueIdx

/-- Columns co … co + 63 of (X · slabᵀ + bias-row), slab and bias-row taken at row offset o, as a [1, 1, 512, 64] tile. -/
def headPiece {F : FTy → Type} [FloatOps F] (o co : Nat)
    (hW : S3072x1024.Slices ![o, 0] S192x1024) (hb : S3072.Slices ![o] S192) (hc : S512x192.Slices ![0, co] S512x64)
    (X : FVec F S512x1024 .bf16) (Wf : FVec F S3072x1024 .bf16) (b : Vec F S3072 .f32) : FVec F S1x1x512x64 .f32 :=
  shapeCast S1x1x512x64
    (extractStridedSlice S512x64 ![0, co]
      (addf
        (matmul dot_S512x1024_S192x1024_S512x192_1_1_0_0_n_n none X (extractStridedSlice S192x1024 ![o, 0] Wf hW)
          (constant S512x192 .f32 0x00000000#32))
        (broadcastTo S512x192 (shapeCast S1x192 (extractStridedSlice S192 ![o] b hb) shapeCasts_S192_S1x192)
          broadcasts_S1x192_S512x192))
      hc)
    shapeCasts_S512x64_S1x1x512x64

/-- The tile at [0, 0, r, e]: row r of X against row o + co + e of the weights, plus that entry of the bias. -/
theorem headPiece_apply (o co : Nat) (ho : o + 192 ≤ 3072) (hco : co + 64 ≤ 192)
    (hW : S3072x1024.Slices ![o, 0] S192x1024) (hb : S3072.Slices ![o] S192) (hc : S512x192.Slices ![0, co] S512x64)
    (X : FVec Ideal S512x1024 .bf16) (Wf : FVec Ideal S3072x1024 .bf16) (b : Vec Ideal S3072 .f32)
    (r : Fin 512) (e : Fin 64) :
    headPiece (F := Ideal) o co hW hb hc X Wf b (ix4 (0 : Fin 1) (0 : Fin 1) r e)
      = (∑ k : Fin 1024, X (ix2 r k) * Wf (ix2 (⟨o + co + e.val, by have := e.isLt; omega⟩ : Fin 3072) k))
        + b (ix1 (⟨o + co + e.val, by have := e.isLt; omega⟩ : Fin 3072)) := by
  have he : e.val < 64 := e.isLt
  have hce : co + e.val < 192 := by omega
  unfold headPiece
  -- the recast to [1, 1, 512, 64] keeps the row-major position
  rw [shapeCast_apply _ shapeCasts_S512x64_S1x1x512x64 (ix4 (0 : Fin 1) (0 : Fin 1) r e) (ix2 r e) (by
    rw [Shape.rowMajor_val_two, Shape.rowMajor_val_four]
    show r.val * 64 + e.val = ((0 * 1 + 0) * 512 + r.val) * 64 + e.val
    omega)]
  -- the column slice shifts the column by co
  rw [extractStridedSlice_apply ![0, co] _ hc (ix2 r e) (ix2 r (⟨co + e.val, hce⟩ : Fin 192)) (fun a => match a with
    | ⟨0, _⟩ => by show r.val = 0 + r.val; omega
    | ⟨1, _⟩ => by show co + e.val = co + e.val; rfl)]
  rw [addf_apply, matmul_zero_apply]
  congr 1
  · -- the slab is rows o … o + 191 of the weights
    refine Finset.sum_congr rfl fun k _ => ?_
    rw [extractStridedSlice_apply ![o, 0] Wf hW (ix2 (⟨co + e.val, hce⟩ : Fin 192) k)
      (ix2 (⟨o + co + e.val, by omega⟩ : Fin 3072) k) (fun a => match a with
      | ⟨0, _⟩ => by show o + co + e.val = o + (co + e.val); omega
      | ⟨1, _⟩ => by show k.val = 0 + k.val; omega)]
  · -- the bias row is broadcast down the rows, from entries o … o + 191 of the bias
    rw [broadcastTo_apply _ broadcasts_S1x192_S512x192 (ix2 r (⟨co + e.val, hce⟩ : Fin 192))
      (ix2 (0 : Fin 1) (⟨co + e.val, hce⟩ : Fin 192)) (fun a => match a with
      | ⟨0, _⟩ => by show (0 : Nat) = if (1 : Nat) = 1 then 0 else _; rw [if_pos rfl]
      | ⟨1, _⟩ => by show co + e.val = if (192 : Nat) = 1 then 0 else co + e.val; rw [if_neg (by decide)])]
    rw [shapeCast_apply _ shapeCasts_S192_S1x192 (ix2 (0 : Fin 1) (⟨co + e.val, hce⟩ : Fin 192)) (ix1 (⟨co + e.val, hce⟩ : Fin 192)) (by
      rw [Shape.rowMajor_val_one, Shape.rowMajor_val_two]
      show co + e.val = 0 * 192 + (co + e.val)
      omega)]
    rw [extractStridedSlice_apply ![o] b hb (ix1 (⟨co + e.val, hce⟩ : Fin 192)) (ix1 (⟨o + co + e.val, by omega⟩ : Fin 3072)) (fun a => match a with
      | ⟨0, _⟩ => by show o + co + e.val = o + (co + e.val); omega)]

end Cert.KernelIdeal.Head

end
-- ==== Proof.Spec.lean ====
/-
  The fused q/k/v projection as ONE function of the argument arrays, index by index, on the extended reals.

  With x : [4, 2048, 1024], W : [3072, 1024], b : [3072], the projection is y[bb, s, o] = Σ_k x[bb, s, k] · W[o, k] + b[o].
  Its 3072 output columns are 16 heads of 192; inside a head the first 64 columns are the query, the next 64 the key,
  the last 64 the value. So the three results, each of shape [4, 16, 2048, 64], are the ONE function `proj co` at the
  column offsets co = 0, 64, 128:

      proj co x W b [bb, h, s, e] = Σ_k x[bb, s, k] · W[192·h + co + e, k] + b[192·h + co + e].

  Nothing here mentions a program: the kernel's blocks and the reference's reshape / transpose / slice are both read
  back to this function elsewhere.
-/
import Idealize.ShloMosaic.PureOps.Ideal
import Idealize.ShloMosaic.Lib.ValueIdx

noncomputable section

namespace Cert.QkvSpec

open Idealize.ShloMosaic Idealize.ShloMosaic.ValueIdx

/-- The row of `W` (and entry of `b`) that column `e` of part `co` of head `h` reads: `192·h + co + e`. -/
def row (co : Nat) (hco : co + 64 ≤ 192) (h : Fin 16) (e : Fin 64) : Fin 3072 :=
  ⟨192 * h.val + co + e.val, by have := h.isLt; have := e.isLt; omega⟩

@[simp] theorem row_val (co : Nat) (hco : co + 64 ≤ 192) (h : Fin 16) (e : Fin 64) :
    (row co hco h e).val = 192 * h.val + co + e.val := rfl

/-- One entry of part `co` of the projection, over explicit coordinates: the row of `x` at (bb, s) against row
    `192·h + co + e` of `W`, plus that entry of the bias. -/
def projAt (co : Nat) (hco : co + 64 ≤ 192)
    (x : (⟨3, ![4, 2048, 1024]⟩ : Shape).Idx → EReal) (w : (⟨2, ![3072, 1024]⟩ : Shape).Idx → EReal)
    (b : (⟨1, ![3072]⟩ : Shape).Idx → EReal) (bb : Fin 4) (h : Fin 16) (s : Fin 2048) (e : Fin 64) : EReal :=
  (∑ k : Fin 1024, x (ix3 bb s k) * w (ix2 (row co hco h e) k)) + b (ix1 (row co hco h e))

/-- Part `co` of the projection as an array of shape [4, 16, 2048, 64]. -/
def proj (co : Nat) (hco : co + 64 ≤ 192)
    (x : (⟨3, ![4, 2048, 1024]⟩ : Shape).Idx → EReal) (w : (⟨2, ![3072, 1024]⟩ : Shape).Idx → EReal)
    (b : (⟨1, ![3072]⟩ : Shape).Idx → EReal) : (⟨4, ![4, 16, 2048, 64]⟩ : Shape).Idx → EReal :=
  fun i => projAt co hco x w b ⟨(i 0).val, (i 0).isLt⟩ ⟨(i 1).val, (i 1).isLt⟩ ⟨(i 2).val, (i 2).isLt⟩ ⟨(i 3).val, (i 3).isLt⟩

theorem proj_ix4 (co : Nat) (hco : co + 64 ≤ 192)
    (x : (⟨3, ![4, 2048, 1024]⟩ : Shape).Idx → EReal) (w : (⟨2, ![3072, 1024]⟩ : Shape).Idx → EReal)
    (b : (⟨1, ![3072]⟩ : Shape).Idx → EReal) (bb : Fin 4) (h : Fin 16) (s : Fin 2048) (e : Fin 64) :
    proj co hco x w b (ix4 bb h s e) = projAt co hco x w b bb h s e := rfl

end Cert.QkvSpec

end
-- ==== Proof.Pieces.lean ====
/-
  What the kernel body leaves in each output buffer, as ONE function of the three input blocks.

  At a grid point the body holds x0 : [1, 512, 1024] (a sequence tile of one batch entry), x1 : [3072, 1024] (all the
  weights) and x2 : [3072] (all the bias), and fills each output buffer [1, 16, 512, 64] by 16 stores, store h covering
  [0, h, :, :]. Store h of the part at column offset co (0: query, 64: key, 128: value) writes the head piece at row
  offset 192·h, so the buffer ends holding

      blockG co x0 x1 x2 [0, h, r, e] = Σ_k x0[0, r, k] · x1[192·h + co + e, k] + x2[192·h + co + e].

  The body's view of the tile (a recast [1, 512, 1024] → [512, 1024] and a change of float format, the identity on the
  extended reals) and of the weights (a recast to the same shape) only re-lay values. Each of the 16 pieces of a buffer
  agrees with blockG on its own rectangle, the rectangles cover the buffer, so the buffer IS blockG.
-/
import proofs.«140509_j19722489823947_1_alg».proof.Proof.HeadPiece
import proofs.«140509_j19722489823947_1_alg».proof.Proof.Spec
import proofs.«140509_j19722489823947_1_alg».proof.Proof.Gen.KernelIdeal.Frame

noncomputable section

namespace Cert.KernelIdeal.Head

open Cert.KernelIdeal Cert.KernelIdeal.Gen Idealize.ShloMosaic Idealize.ShloMosaic.ValueIdx

/-! ## The body's loads read its buffers whole -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The tile as the product sees it: entry (r, k) is the block's entry [0, r, k]. -/
theorem tile_apply (x0 : Vec Ideal S1x512x1024 .f32) (r : Fin 512) (k : Fin 1024) :
    k0_pay3 (F := Ideal) (View.ld x0 r0_0) (ix2 r k) = x0 (ix3 (0 : Fin 1) r k) := by
  rw [View.ld_unit_zero (S := S1x512x1024) zeros3]
  -- the change of float format is the identity on the extended reals; what is left is the recast
  exact shapeCast_apply (α := Elt Ideal .f32) x0 shapeCasts_S1x512x1024_S512x1024 (ix2 r k) (ix3 (0 : Fin 1) r k) (by
    rw [Shape.rowMajor_val_two, Shape.rowMajor_val_three]
    show (0 * 512 + r.val) * 1024 + k.val = r.val * 1024 + k.val
    omega)

/-- The weights as the product sees them: the block itself. -/
theorem weights_eq (x1 : Vec Ideal S3072x1024 .bf16) : k0_pay4 (F := Ideal) (View.ld x1 r0_1) = x1 := by
  rw [View.ld_unit_zero (S := S3072x1024) zeros2]
  exact shapeCast_self x1 shapeCasts_S3072x1024_S3072x1024

/-- The bias as the body loads it: the block itself. -/
theorem bias_eq (x2 : Vec Ideal S3072 .f32) : View.ld x2 r0_2 = x2 :=
  View.ld_unit_zero (S := S3072) zeros1 _ x2

/-! ## The block function -/

/-- One entry of an output buffer over explicit coordinates: head h, row r of the tile, column e of the part at co. -/
def blockAt (co : Nat) (hco : co + 64 ≤ 192) (x0 : Vec Ideal S1x512x1024 .f32) (x1 : Vec Ideal S3072x1024 .bf16)
    (x2 : Vec Ideal S3072 .f32) (h : Fin 16) (r : Fin 512) (e : Fin 64) : EReal :=
  (∑ k : Fin 1024, x0 (ix3 (0 : Fin 1) r k) * x1 (ix2 (Cert.QkvSpec.row co hco h e) k)) + x2 (ix1 (Cert.QkvSpec.row co hco h e))

theorem blockAt_congr (co : Nat) (hco : co + 64 ≤ 192) (x0 : Vec Ideal S1x512x1024 .f32) (x1 : Vec Ideal S3072x1024 .bf16)
    (x2 : Vec Ideal S3072 .f32) {h h' : Fin 16} {r r' : Fin 512} {e e' : Fin 64} (e1 : h = h') (e2 : r = r') (e3 : e = e') :
    blockAt co hco x0 x1 x2 h r e = blockAt co hco x0 x1 x2 h' r' e' := by subst e1 e2 e3; rfl

/-- The output buffer of the part at column offset co, as a function of the three input blocks. -/
def blockG (co : Nat) (hco : co + 64 ≤ 192) (x0 : Vec Ideal S1x512x1024 .f32) (x1 : Vec Ideal S3072x1024 .bf16)
    (x2 : Vec Ideal S3072 .f32) : Vec Ideal S1x16x512x64 .f32 :=
  fun y => blockAt co hco x0 x1 x2 ⟨(y 1).val, (y 1).isLt⟩ ⟨(y 2).val, (y 2).isLt⟩ ⟨(y 3).val, (y 3).isLt⟩

/-! ## Every store writes its rectangle of the block function -/

/-- The head piece at row offset 192·h, read at the local index x of the store rectangle [0, h, :, :], is blockG at
    the rectangle's image of x. -/
theorem piece_eq (co : Nat) (hco : co + 64 ≤ 192) (hidx : Nat) (hh : hidx < 16) (o : Nat) (ho : o = 192 * hidx)
    (inb : ∀ a, (![0, hidx, 0, 0] : Fin 4 → Nat) a + S1x1x512x64.size a ≤ S1x16x512x64.size a)
    (hW : S3072x1024.Slices ![o, 0] S192x1024) (hb : S3072.Slices ![o] S192) (hc : S512x192.Slices ![0, co] S512x64)
    (x0 : Vec Ideal S1x512x1024 .f32) (x1 : Vec Ideal S3072x1024 .bf16) (x2 : Vec Ideal S3072 .f32)
    (x : S1x1x512x64.Idx) :
    headPiece (F := Ideal) o co hW hb hc (k0_pay3 (View.ld x0 r0_0)) (k0_pay4 (View.ld x1 r0_1)) (View.ld x2 r0_2) x
      = blockG co hco x0 x1 x2 ((Rect.unit (s := S1x16x512x64) ![0, hidx, 0, 0] S1x1x512x64.size inb).emb x) := by
  obtain ⟨r, e, rfl⟩ : ∃ (r : Fin 512) (e : Fin 64), x = ix4 (0 : Fin 1) (0 : Fin 1) r e := ⟨x 2, x 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩
  subst ho
  rw [bias_eq x2, headPiece_apply (192 * hidx) co (by omega) hco hW hb hc]
  -- the rectangle puts the local index at head hidx, row r, column e
  refine Eq.trans ?_ (blockAt_congr co hco x0 x1 x2 (h := ⟨hidx, hh⟩) (r := r) (e := e)
    (Fin.ext (by show hidx = hidx + 1 * 0; omega)) (Fin.ext (by show r.val = 0 + 1 * r.val; omega))
    (Fin.ext (by show e.val = 0 + 1 * e.val; omega)))
  unfold blockAt
  simp only [tile_apply, weights_eq]
  rfl

/-! ## The three buffers -/

/-- The query buffer after the body. -/
theorem out_q (x0 : Vec Ideal S1x512x1024 .f32) (x1 : Vec Ideal S3072x1024 .bf16) (x2 : Vec Ideal S3072 .f32) :
    out0_3 (F := Ideal) x0 x1 x2 = blockG 0 (by omega) x0 x1 x2 := by
  funext y
  unfold out0_3
  refine View.canon_apply_of_pieces (blockG 0 (by omega) x0 x1 x2) _ ?_ y (cover0_3 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl <;>
    exact piece_eq 0 (by omega) _ (by omega) _ (by rfl) (by decide) (by decide) (by decide) (by decide) x0 x1 x2

/-- The key buffer after the body. -/
theorem out_k (x0 : Vec Ideal S1x512x1024 .f32) (x1 : Vec Ideal S3072x1024 .bf16) (x2 : Vec Ideal S3072 .f32) :
    out0_4 (F := Ideal) x0 x1 x2 = blockG 64 (by omega) x0 x1 x2 := by
  funext y
  unfold out0_4
  refine View.canon_apply_of_pieces (blockG 64 (by omega) x0 x1 x2) _ ?_ y (cover0_4 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl <;>
    exact piece_eq 64 (by omega) _ (by omega) _ (by rfl) (by decide) (by decide) (by decide) (by decide) x0 x1 x2

/-- The value buffer after the body. -/
theorem out_v (x0 : Vec Ideal S1x512x1024 .f32) (x1 : Vec Ideal S3072x1024 .bf16) (x2 : Vec Ideal S3072 .f32) :
    out0_5 (F := Ideal) x0 x1 x2 = blockG 128 (by omega) x0 x1 x2 := by
  funext y
  unfold out0_5
  refine View.canon_apply_of_pieces (blockG 128 (by omega) x0 x1 x2) _ ?_ y (cover0_5 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl <;>
    exact piece_eq 128 (by omega) _ (by omega) _ (by rfl) (by decide) (by decide) (by decide) (by decide) x0 x1 x2

end Cert.KernelIdeal.Head

end
-- ==== Proof.Blocks.lean ====
/-
  From the blocks to the whole arrays.

  The grid has 4 × 4 points (bb, st): batch entry bb and sequence tile st of 512 rows. At that point the kernel reads
  the tile x[bb, 512·st … 512·st + 511, :], all the weights and all the bias, and writes block [bb, :, 512·st …, :] of
  each of the three results. By Pieces what it writes is blockG of its input blocks; read through the index maps that is
  block (bb, st) of the ONE whole-array function `proj co` of the arguments (Spec). The 16 blocks tile each result — the
  point that covers entry [bb, h, s, e] is (bb, s / 512) — so after the run each result array IS `proj co` of the
  arguments: co = 0 the query, 64 the key, 128 the value.

  The weights reach the kernel through one host operation, a change of float format, which is the identity on the
  extended reals.
-/
import proofs.«140509_j19722489823947_1_alg».proof.Proof.Pieces
import proofs.«140509_j19722489823947_1_alg».proof.Proof.Gen.KernelIdeal.Value
import Idealize.ShloMosaic.Lib.StableHlo.Run

noncomputable section

namespace Cert.KernelIdeal.Blocks

open Cert.KernelIdeal Cert.KernelIdeal.Gen Cert.KernelIdeal.Head Idealize.ShloMosaic Idealize.ShloMosaic.TcCoe Idealize.SL.Sem
open Idealize.ShloMosaic.ValueIdx Idealize.ShloMosaic.StableHlo
open Idealize.ShloMosaic.Pipeline (Dat)

/-! ## A block of blockG is a block of the projection (over plain variables) -/

/-- If x0 is the tile (bi, si) of the array xa, x1 the array wa and x2 the array ba, then blockG of the blocks at the
    local index j is `proj co` of the arrays at the array index i that j lands on. -/
theorem block_is_proj (co : Nat) (hco : co + 64 ≤ 192)
    (xa : (⟨3, ![4, 2048, 1024]⟩ : Shape).Idx → EReal) (wa : (⟨2, ![3072, 1024]⟩ : Shape).Idx → EReal)
    (ba : (⟨1, ![3072]⟩ : Shape).Idx → EReal)
    (x0 : Vec Ideal S1x512x1024 .f32) (x1 : Vec Ideal S3072x1024 .bf16) (x2 : Vec Ideal S3072 .f32)
    (bi si : Nat) (hbi : bi < 4) (hsi : si < 4)
    (h0 : ∀ (r : Fin 512) (k : Fin 1024),
      x0 (ix3 (0 : Fin 1) r k) = xa (ix3 (⟨bi, hbi⟩ : Fin 4) (⟨si * 512 + r.val, by have := r.isLt; omega⟩ : Fin 2048) k))
    (h1 : ∀ i, x1 i = wa i) (h2 : ∀ i, x2 i = ba i)
    (j : S1x16x512x64.Idx) (i : S4x16x2048x64.Idx)
    (hi0 : (i 0).val = bi) (hi1 : (i 1).val = (j 1).val) (hi2 : (i 2).val = si * 512 + (j 2).val) (hi3 : (i 3).val = (j 3).val) :
    blockG co hco x0 x1 x2 j = Cert.QkvSpec.proj co hco xa wa ba i := by
  have hj2 : (j 2).val < 512 := (j 2).isLt
  have e0 : (⟨(i 0).val, (i 0).isLt⟩ : Fin 4) = ⟨bi, hbi⟩ := Fin.ext hi0
  have e1 : (⟨(i 1).val, (i 1).isLt⟩ : Fin 16) = ⟨(j 1).val, (j 1).isLt⟩ := Fin.ext hi1
  have e2 : (⟨(i 2).val, (i 2).isLt⟩ : Fin 2048) = ⟨si * 512 + (⟨(j 2).val, (j 2).isLt⟩ : Fin 512).val, by show si * 512 + (j 2).val < 2048; omega⟩ := Fin.ext hi2
  have e3 : (⟨(i 3).val, (i 3).isLt⟩ : Fin 64) = ⟨(j 3).val, (j 3).isLt⟩ := Fin.ext hi3
  unfold blockG blockAt Cert.QkvSpec.proj Cert.QkvSpec.projAt
  rw [e0, e1, e2, e3]
  refine congrArg₂ (· + ·) (Finset.sum_congr rfl fun k _ => ?_) (h2 _)
  rw [h0, h1]

variable (m : (ℓ : Loc nD τ sig) → Buf (Elt Ideal) ℓ) (ρ : Dev nD → PrngReg)

/-! ## The arrays as the region finds them -/

/-- The array window 1 stages is the weights: the host's change of float format is the identity on the extended reals. -/
theorem staged_weights (c : Dev nD) (i : S3072x1024.Idx) :
    (V m c main_v0 : S3072x1024.Idx → EReal) i = (m ((c : Thread nD τ).loc main_arg1) : S3072x1024.Idx → EReal) i := by
  have e : (V m c main_v0 : S3072x1024.Idx → EReal)
      = truncf (F := Ideal) .bf16 (m ((c : Thread nD τ).loc main_arg1)) bitsLt_bf16_f32 := by
    dsimp only [Gen.V, Gen.hostOps0]; after_results
  rw [e]; rfl

/-- Part co of the projection of the arguments as launched. -/
abbrev projArgs (co : Nat) (hco : co + 64 ≤ 192) (c : Dev nD) : (⟨4, ![4, 16, 2048, 64]⟩ : Shape).Idx → EReal :=
  Cert.QkvSpec.proj co hco (m ((c : Thread nD τ).loc main_arg0)) (m ((c : Thread nD τ).loc main_arg1)) (m ((c : Thread nD τ).loc main_arg2))

/-! ## The printed index maps, decided over the 16 grid points -/

/-- The tile's block index is (bb, st, 0) with bb, st ≤ 3; weights and bias stay at block 0. -/
theorem idx_in : ∀ t : Fin cfg0.N,
    win0_0.index t (0 : Fin 3) ≤ 3 ∧ win0_0.index t (1 : Fin 3) ≤ 3 ∧ win0_0.index t (2 : Fin 3) = 0
    ∧ win0_1.index t (0 : Fin 2) = 0 ∧ win0_1.index t (1 : Fin 2) = 0 ∧ win0_2.index t (0 : Fin 1) = 0 :=
  (by decide +kernel : ∀ t : Fin grid0.N, _)

/-- The query's block index is (bb, 0, st, 0): it moves with the tile. -/
theorem idx_out_q : ∀ t : Fin cfg0.N,
    win0_3.index t (0 : Fin 4) = win0_0.index t (0 : Fin 3) ∧ win0_3.index t (1 : Fin 4) = 0
    ∧ win0_3.index t (2 : Fin 4) = win0_0.index t (1 : Fin 3) ∧ win0_3.index t (3 : Fin 4) = 0 :=
  (by decide +kernel : ∀ t : Fin grid0.N, _)
/-- So does the key's. -/
theorem idx_out_k : ∀ t : Fin cfg0.N,
    win0_4.index t (0 : Fin 4) = win0_0.index t (0 : Fin 3) ∧ win0_4.index t (1 : Fin 4) = 0
    ∧ win0_4.index t (2 : Fin 4) = win0_0.index t (1 : Fin 3) ∧ win0_4.index t (3 : Fin 4) = 0 :=
  (by decide +kernel : ∀ t : Fin grid0.N, _)
/-- So does the value's. -/
theorem idx_out_v : ∀ t : Fin cfg0.N,
    win0_5.index t (0 : Fin 4) = win0_0.index t (0 : Fin 3) ∧ win0_5.index t (1 : Fin 4) = 0
    ∧ win0_5.index t (2 : Fin 4) = win0_0.index t (1 : Fin 3) ∧ win0_5.index t (3 : Fin 4) = 0 :=
  (by decide +kernel : ∀ t : Fin grid0.N, _)

/-- Every block (bb, 0, st, 0) of a result is some point's. -/
theorem idx_onto_q : ∀ (q0 : Fin 4) (q2 : Fin 4), ∃ t : Fin cfg0.N, win0_3.index t = ![q0.val, 0, q2.val, 0] :=
  (by decide +kernel : ∀ (q0 : Fin 4) (q2 : Fin 4), ∃ t : Fin grid0.N, win0_3.index t = ![q0.val, 0, q2.val, 0])
theorem idx_onto_k : ∀ (q0 : Fin 4) (q2 : Fin 4), ∃ t : Fin cfg0.N, win0_4.index t = ![q0.val, 0, q2.val, 0] :=
  (by decide +kernel : ∀ (q0 : Fin 4) (q2 : Fin 4), ∃ t : Fin grid0.N, win0_4.index t = ![q0.val, 0, q2.val, 0])
theorem idx_onto_v : ∀ (q0 : Fin 4) (q2 : Fin 4), ∃ t : Fin cfg0.N, win0_5.index t = ![q0.val, 0, q2.val, 0] :=
  (by decide +kernel : ∀ (q0 : Fin 4) (q2 : Fin 4), ∃ t : Fin grid0.N, win0_5.index t = ![q0.val, 0, q2.val, 0])

/-! ## The input blocks at a point, read off the arguments -/

/-- The tile at point t is rows 512·st … of batch entry bb of x, (bb, st) the tile's block index. -/
theorem tile_block (c : Dev nD) (t : Fin cfg0.N) (hb : win0_0.index t (0 : Fin 3) < 4) (hs : win0_0.index t (1 : Fin 3) < 4)
    (r : Fin 512) (k : Fin 1024) :
    iblk m c 0 t (ix3 (0 : Fin 1) r k)
      = (m ((c : Thread nD τ).loc main_arg0) : S4x2048x1024.Idx → EReal)
          (ix3 (⟨win0_0.index t (0 : Fin 3), hb⟩ : Fin 4) (⟨win0_0.index t (1 : Fin 3) * 512 + r.val, by have := r.isLt; omega⟩ : Fin 2048) k) := by
  obtain ⟨-, -, f2, -, -, -⟩ := idx_in t
  show V m c main_arg0 (((cfg0.win 0).blk t).view.emb (ix3 (0 : Fin 1) r k)) = _
  rw [V_main_arg0]
  refine congrArg (m ((c : Thread nD τ).loc main_arg0)) (funext fun a => Fin.ext ?_)
  match a with
  | ⟨0, _⟩ => show win0_0.index t (0 : Fin 3) * 1 + 1 * 0 = win0_0.index t (0 : Fin 3); omega
  | ⟨1, _⟩ => show win0_0.index t (1 : Fin 3) * 512 + 1 * r.val = win0_0.index t (1 : Fin 3) * 512 + r.val; omega
  | ⟨2, _⟩ => show win0_0.index t (2 : Fin 3) * 1024 + 1 * k.val = k.val; omega

/-- The weights' block at every point is the whole of W. -/
theorem weights_block (c : Dev nD) (t : Fin cfg0.N) (i : S3072x1024.Idx) :
    (iblk m c 1 t : S3072x1024.Idx → EReal) i = (m ((c : Thread nD τ).loc main_arg1) : S3072x1024.Idx → EReal) i := by
  obtain ⟨-, -, -, f3, f4, -⟩ := idx_in t
  show V m c main_v0 (((cfg0.win 1).blk t).view.emb i) = _
  rw [← staged_weights m c i]
  refine congrArg (V m c main_v0) (funext fun a => Fin.ext ?_)
  match a with
  | ⟨0, _⟩ => show win0_1.index t (0 : Fin 2) * 3072 + 1 * (i 0).val = (i 0).val; omega
  | ⟨1, _⟩ => show win0_1.index t (1 : Fin 2) * 1024 + 1 * (i 1).val = (i 1).val; omega

/-- The bias' block at every point is the whole of b. -/
theorem bias_block (c : Dev nD) (t : Fin cfg0.N) (i : S3072.Idx) :
    (iblk m c 2 t : S3072.Idx → EReal) i = (m ((c : Thread nD τ).loc main_arg2) : S3072.Idx → EReal) i := by
  obtain ⟨-, -, -, -, -, f5⟩ := idx_in t
  show V m c main_arg2 (((cfg0.win 2).blk t).view.emb i) = _
  rw [V_main_arg2]
  refine congrArg (m ((c : Thread nD τ).loc main_arg2)) (funext fun a => Fin.ext ?_)
  match a with
  | ⟨0, _⟩ => show win0_2.index t (0 : Fin 1) * 3072 + 1 * (i 0).val = (i 0).val; omega

/-! ## The query array -/

/-- What point t writes back to the query array is block t of the projection at column offset 0. -/
theorem flushed_q (c : Dev nD) (t : Fin cfg0.N) :
    (dats m 0 c).flushed 3 t = ((cfg0.win 3).blk t).view.read (Elt Ideal) (projArgs m 0 (by omega) c) := by
  rw [Value.flushed3, out_q]
  obtain ⟨b0, b1, -, -, -, -⟩ := idx_in t
  obtain ⟨g0, g1, g2, g3⟩ := idx_out_q t
  funext j
  show blockG 0 _ (iblk m c 0 t) (iblk m c 1 t) (iblk m c 2 t) j
    = Cert.QkvSpec.proj 0 _ (m ((c : Thread nD τ).loc main_arg0)) (m ((c : Thread nD τ).loc main_arg1)) (m ((c : Thread nD τ).loc main_arg2)) (((cfg0.win 3).blk t).view.emb j)
  have hj : (j 0).val < 1 := (j 0).isLt
  exact block_is_proj 0 (by omega) (m ((c : Thread nD τ).loc main_arg0)) (m ((c : Thread nD τ).loc main_arg1)) (m ((c : Thread nD τ).loc main_arg2))
    (iblk m c 0 t) (iblk m c 1 t) (iblk m c 2 t) (win0_0.index t (0 : Fin 3)) (win0_0.index t (1 : Fin 3)) (by omega) (by omega)
    (tile_block m c t (by omega) (by omega)) (weights_block m c t) (bias_block m c t) j (((cfg0.win 3).blk t).view.emb j)
    (by show win0_3.index t (0 : Fin 4) * 1 + 1 * (j 0).val = win0_0.index t (0 : Fin 3); omega)
    (by show win0_3.index t (1 : Fin 4) * 16 + 1 * (j 1).val = (j 1).val; omega)
    (by show win0_3.index t (2 : Fin 4) * 512 + 1 * (j 2).val = win0_0.index t (1 : Fin 3) * 512 + (j 2).val; omega)
    (by show win0_3.index t (3 : Fin 4) * 64 + 1 * (j 3).val = (j 3).val; omega)

/-- An index of the query array is in point t's block iff each coordinate is in the block's range on its axis. -/
theorem mem_blk_q (t : Fin cfg0.N) (i : S4x16x2048x64.Idx) :
    i ∈ ((cfg0.win 3).blk t).view.set ↔ ∀ a : Fin 4, win0_3.index t a * S1x16x512x64.size a ≤ (i a).val ∧ (i a).val < win0_3.index t a * S1x16x512x64.size a + S1x16x512x64.size a := by
  show i ∈ ((View.whole main_v1_0).slice (win0_3.rect t)).set ↔ _
  rw [View.set_slice_whole, Rect.mem_set_unit]
  exact Iff.rfl

/-- The 16 blocks tile the query array: entry [bb, h, s, e] is in the block of the point (bb, s / 512). -/
theorem cover_q (i : S4x16x2048x64.Idx) : ∃ t : Fin cfg0.N, (cfg0.win 3).flush t = true ∧ i ∈ ((cfg0.win 3).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto_q ⟨(i 0).val, hi0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  refine ⟨t, flush0_3 t, ?_⟩
  rw [mem_blk_q]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- The query array after the run is the projection at column offset 0 of the arguments. -/
theorem final_q (c : Dev nD) : (dats m 0 c).arrAt 3 cfg0.N = projArgs m 0 (by omega) c :=
  (dats m 0 c).arrAt_eq_of_cover 3 (projArgs m 0 (by omega) c) (fun t _ => flushed_q m c t) cover_q

/-! ## The key array: the same argument at window 4 and column offset 64 -/

/-- What point t writes back to the key array is block t of the projection at column offset 64. -/
theorem flushed_k (c : Dev nD) (t : Fin cfg0.N) :
    (dats m 0 c).flushed 4 t = ((cfg0.win 4).blk t).view.read (Elt Ideal) (projArgs m 64 (by omega) c) := by
  rw [Value.flushed4, out_k]
  obtain ⟨b0, b1, -, -, -, -⟩ := idx_in t
  obtain ⟨g0, g1, g2, g3⟩ := idx_out_k t
  funext j
  show blockG 64 _ (iblk m c 0 t) (iblk m c 1 t) (iblk m c 2 t) j
    = Cert.QkvSpec.proj 64 _ (m ((c : Thread nD τ).loc main_arg0)) (m ((c : Thread nD τ).loc main_arg1)) (m ((c : Thread nD τ).loc main_arg2)) (((cfg0.win 4).blk t).view.emb j)
  have hj : (j 0).val < 1 := (j 0).isLt
  exact block_is_proj 64 (by omega) (m ((c : Thread nD τ).loc main_arg0)) (m ((c : Thread nD τ).loc main_arg1)) (m ((c : Thread nD τ).loc main_arg2))
    (iblk m c 0 t) (iblk m c 1 t) (iblk m c 2 t) (win0_0.index t (0 : Fin 3)) (win0_0.index t (1 : Fin 3)) (by omega) (by omega)
    (tile_block m c t (by omega) (by omega)) (weights_block m c t) (bias_block m c t) j (((cfg0.win 4).blk t).view.emb j)
    (by show win0_4.index t (0 : Fin 4) * 1 + 1 * (j 0).val = win0_0.index t (0 : Fin 3); omega)
    (by show win0_4.index t (1 : Fin 4) * 16 + 1 * (j 1).val = (j 1).val; omega)
    (by show win0_4.index t (2 : Fin 4) * 512 + 1 * (j 2).val = win0_0.index t (1 : Fin 3) * 512 + (j 2).val; omega)
    (by show win0_4.index t (3 : Fin 4) * 64 + 1 * (j 3).val = (j 3).val; omega)

theorem mem_blk_k (t : Fin cfg0.N) (i : S4x16x2048x64.Idx) :
    i ∈ ((cfg0.win 4).blk t).view.set ↔ ∀ a : Fin 4, win0_4.index t a * S1x16x512x64.size a ≤ (i a).val ∧ (i a).val < win0_4.index t a * S1x16x512x64.size a + S1x16x512x64.size a := by
  show i ∈ ((View.whole main_v1_1).slice (win0_4.rect t)).set ↔ _
  rw [View.set_slice_whole, Rect.mem_set_unit]
  exact Iff.rfl

/-- The 16 blocks tile the key array. -/
theorem cover_k (i : S4x16x2048x64.Idx) : ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto_k ⟨(i 0).val, hi0⟩ ⟨(i 2).val / 512, by omega⟩
  have q0 : win0_4.index t (0 : Fin 4) = (i 0).val := congrFun ht 0
  have q1 : win0_4.index t (1 : Fin 4) = 0 := congrFun ht 1
  have q2 : win0_4.index t (2 : Fin 4) = (i 2).val / 512 := congrFun ht 2
  have q3 : win0_4.index t (3 : Fin 4) = 0 := congrFun ht 3
  refine ⟨t, flush0_4 t, ?_⟩
  rw [mem_blk_k]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- The key array after the run is the projection at column offset 64 of the arguments. -/
theorem final_k (c : Dev nD) : (dats m 0 c).arrAt 4 cfg0.N = projArgs m 64 (by omega) c :=
  (dats m 0 c).arrAt_eq_of_cover 4 (projArgs m 64 (by omega) c) (fun t _ => flushed_k m c t) cover_k

/-! ## The value array: the same argument at window 5 and column offset 128 -/

/-- What point t writes back to the value array is block t of the projection at column offset 128. -/
theorem flushed_v (c : Dev nD) (t : Fin cfg0.N) :
    (dats m 0 c).flushed 5 t = ((cfg0.win 5).blk t).view.read (Elt Ideal) (projArgs m 128 (by omega) c) := by
  rw [Value.flushed5, out_v]
  obtain ⟨b0, b1, -, -, -, -⟩ := idx_in t
  obtain ⟨g0, g1, g2, g3⟩ := idx_out_v t
  funext j
  show blockG 128 _ (iblk m c 0 t) (iblk m c 1 t) (iblk m c 2 t) j
    = Cert.QkvSpec.proj 128 _ (m ((c : Thread nD τ).loc main_arg0)) (m ((c : Thread nD τ).loc main_arg1)) (m ((c : Thread nD τ).loc main_arg2)) (((cfg0.win 5).blk t).view.emb j)
  have hj : (j 0).val < 1 := (j 0).isLt
  exact block_is_proj 128 (by omega) (m ((c : Thread nD τ).loc main_arg0)) (m ((c : Thread nD τ).loc main_arg1)) (m ((c : Thread nD τ).loc main_arg2))
    (iblk m c 0 t) (iblk m c 1 t) (iblk m c 2 t) (win0_0.index t (0 : Fin 3)) (win0_0.index t (1 : Fin 3)) (by omega) (by omega)
    (tile_block m c t (by omega) (by omega)) (weights_block m c t) (bias_block m c t) j (((cfg0.win 5).blk t).view.emb j)
    (by show win0_5.index t (0 : Fin 4) * 1 + 1 * (j 0).val = win0_0.index t (0 : Fin 3); omega)
    (by show win0_5.index t (1 : Fin 4) * 16 + 1 * (j 1).val = (j 1).val; omega)
    (by show win0_5.index t (2 : Fin 4) * 512 + 1 * (j 2).val = win0_0.index t (1 : Fin 3) * 512 + (j 2).val; omega)
    (by show win0_5.index t (3 : Fin 4) * 64 + 1 * (j 3).val = (j 3).val; omega)

theorem mem_blk_v (t : Fin cfg0.N) (i : S4x16x2048x64.Idx) :
    i ∈ ((cfg0.win 5).blk t).view.set ↔ ∀ a : Fin 4, win0_5.index t a * S1x16x512x64.size a ≤ (i a).val ∧ (i a).val < win0_5.index t a * S1x16x512x64.size a + S1x16x512x64.size a := by
  show i ∈ ((View.whole main_v1_2).slice (win0_5.rect t)).set ↔ _
  rw [View.set_slice_whole, Rect.mem_set_unit]
  exact Iff.rfl

/-- The 16 blocks tile the value array. -/
theorem cover_v (i : S4x16x2048x64.Idx) : ∃ t : Fin cfg0.N, (cfg0.win 5).flush t = true ∧ i ∈ ((cfg0.win 5).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto_v ⟨(i 0).val, hi0⟩ ⟨(i 2).val / 512, by omega⟩
  have q0 : win0_5.index t (0 : Fin 4) = (i 0).val := congrFun ht 0
  have q1 : win0_5.index t (1 : Fin 4) = 0 := congrFun ht 1
  have q2 : win0_5.index t (2 : Fin 4) = (i 2).val / 512 := congrFun ht 2
  have q3 : win0_5.index t (3 : Fin 4) = 0 := congrFun ht 3
  refine ⟨t, flush0_5 t, ?_⟩
  rw [mem_blk_v]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 512 ≤ (i 2).val ∧ (i 2).val < win0_5.index t (2 : Fin 4) * 512 + 512; omega
  | ⟨3, _⟩ => show win0_5.index t (3 : Fin 4) * 64 ≤ (i 3).val ∧ (i 3).val < win0_5.index t (3 : Fin 4) * 64 + 64; omega

/-- The value array after the run is the projection at column offset 128 of the arguments. -/
theorem final_v (c : Dev nD) : (dats m 0 c).arrAt 5 cfg0.N = projArgs m 128 (by omega) c :=
  (dats m 0 c).arrAt_eq_of_cover 5 (projArgs m 128 (by omega) c) (fun t _ => flushed_v m c t) cover_v

/-! ## The run, read -/

/-- Every weakly fair execution of the idealized kernel terminates with the three results at the projection of the
    arguments at column offsets 0, 64, 128, and the arguments unchanged. -/
theorem run : θ_run defs (onTc (τ := τ) (main (F := Ideal))) ⟨m, fun _ => 0, ρ⟩ fun r => ∀ c : Dev nD,
      r.2.mem ((c : Thread nD τ).loc main_v1_0) = projArgs m 0 (by omega) c
      ∧ r.2.mem ((c : Thread nD τ).loc main_v1_1) = projArgs m 64 (by omega) c
      ∧ r.2.mem ((c : Thread nD τ).loc main_v1_2) = projArgs m 128 (by omega) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_q m c), (h c).2.1.trans (final_k m c),
      (h c).2.2.1.trans (final_v m c), (h c).2.2.2⟩)
    (Value.run_blocks m ρ)

end Cert.KernelIdeal.Blocks

end
-- ==== Proof.RefValue.lean ====
/-
  The reference's three results are the projection at the column offsets 0, 64, 128.

  The reference forms y = x · Wᵀ + b as one [4, 2048, 3072] array (a contraction over the shared axis of length 1024,
  the bias broadcast over batch and sequence), recasts the 3072 columns as 16 heads of 192, moves the head axis in
  front of the sequence axis, and cuts the 192 columns of a head into three runs of 64. So result entry
  [bb, h, s, e] of the run at column offset co is y[bb, s, 192·h + co + e]: the recast sends position
  ((bb·2048 + s)·16 + h)·192 + c back to (bb, s, 192·h + c), which is plain division with remainder.
-/
import proofs.«140509_j19722489823947_1_alg».proof.Proof.Gen.ReferenceIdeal.Read
import proofs.«140509_j19722489823947_1_alg».proof.Proof.Spec

noncomputable section

namespace Cert.ReferenceIdeal.RefValue

open Cert.ReferenceIdeal Cert.ReferenceIdeal.Read Idealize.ShloMosaic Idealize.ShloMosaic.ValueIdx

/-- The head-major array [4, 16, 2048, 192] (after the transpose) at entry j = [bb, h, s, c] is
    Σ_k x[bb, s, k] · W[192·h + c, k] + b[192·h + c]. -/
theorem headMajor_apply (x0 : (⟨S4x2048x1024, .f32⟩ : BufTy).Contents (Elt Ideal)) (x1 : (⟨S3072x1024, .f32⟩ : BufTy).Contents (Elt Ideal))
    (x2 : (⟨S3072, .f32⟩ : BufTy).Contents (Elt Ideal)) (j : S4x16x2048x192.Idx)
    (bb : Fin 4) (h : Fin 16) (s : Fin 2048) (o : Fin 3072)
    (h0 : (j 0).val = bb.val) (h1 : (j 1).val = h.val) (h2 : (j 2).val = s.val) (h3 : 192 * h.val + (j 3).val = o.val) :
    val_main_v5 (F := Ideal) x0 x1 x2 j = (∑ k : Fin 1024, x0 (ix3 bb s k) * x1 (ix2 o k)) + x2 (ix1 o) := by
  have hb : bb.val < 4 := bb.isLt
  have hh : h.val < 16 := h.isLt
  have hs : s.val < 2048 := s.isLt
  have hc : (j 3).val < 192 := (j 3).isLt
  -- the recast sends ((bb·2048 + s)·16 + h)·192 + c back to (bb, s, 192·h + c)
  have el : ∀ k : Fin 1024, lidx_main_v0 (idx_main_v4 (idx_main_v5 j)) k = ix3 bb s k := fun k => funext fun a => Fin.ext (by
    match a with
    | ⟨0, _⟩ => show ((((j 0).val * 2048 + (j 2).val) * 16 + (j 1).val) * 192 + (j 3).val) / 6291456 = bb.val; omega
    | ⟨1, _⟩ => show ((((j 0).val * 2048 + (j 2).val) * 16 + (j 1).val) * 192 + (j 3).val) / 3072 % 2048 = s.val; omega
    | ⟨2, _⟩ => rfl)
  have er : ∀ k : Fin 1024, ridx_main_v0 (idx_main_v4 (idx_main_v5 j)) k = ix2 o k := fun k => funext fun a => Fin.ext (by
    match a with
    | ⟨0, _⟩ => show ((((j 0).val * 2048 + (j 2).val) * 16 + (j 1).val) * 192 + (j 3).val) % 3072 = o.val; omega
    | ⟨1, _⟩ => rfl)
  have eb : idx_main_v1 (idx_main_v2 (idx_main_v4 (idx_main_v5 j))) = ix1 o := funext fun a => Fin.ext (by
    match a with
    | ⟨0, _⟩ => show ((((j 0).val * 2048 + (j 2).val) * 16 + (j 1).val) * 192 + (j 3).val) % 3072 = o.val; omega)
  rw [val_main_v5_apply, val_main_v4_apply, val_main_v3_apply, val_main_v0_apply, val_main_v2_apply, val_main_v1_apply]
  simp only [el, er, eb]
  rfl

/-- The first run of 64 columns is the query: the projection at column offset 0. -/
theorem ref_q (x0 : (⟨S4x2048x1024, .f32⟩ : BufTy).Contents (Elt Ideal)) (x1 : (⟨S3072x1024, .f32⟩ : BufTy).Contents (Elt Ideal))
    (x2 : (⟨S3072, .f32⟩ : BufTy).Contents (Elt Ideal)) :
    val_main_v6 (F := Ideal) x0 x1 x2 = Cert.QkvSpec.proj 0 (by omega) x0 x1 x2 := by
  funext i
  rw [val_main_v6_apply]
  exact headMajor_apply x0 x1 x2 (idx_main_v6 i) ⟨(i 0).val, (i 0).isLt⟩ ⟨(i 1).val, (i 1).isLt⟩ ⟨(i 2).val, (i 2).isLt⟩ _
    rfl rfl rfl (by show 192 * (i 1).val + (i 3).val = 192 * (i 1).val + 0 + (i 3).val; omega)

/-- The second run is the key: the projection at column offset 64. -/
theorem ref_k (x0 : (⟨S4x2048x1024, .f32⟩ : BufTy).Contents (Elt Ideal)) (x1 : (⟨S3072x1024, .f32⟩ : BufTy).Contents (Elt Ideal))
    (x2 : (⟨S3072, .f32⟩ : BufTy).Contents (Elt Ideal)) :
    val_main_v7 (F := Ideal) x0 x1 x2 = Cert.QkvSpec.proj 64 (by omega) x0 x1 x2 := by
  funext i
  rw [val_main_v7_apply]
  exact headMajor_apply x0 x1 x2 (idx_main_v7 i) ⟨(i 0).val, (i 0).isLt⟩ ⟨(i 1).val, (i 1).isLt⟩ ⟨(i 2).val, (i 2).isLt⟩ _
    rfl rfl rfl (by show 192 * (i 1).val + (64 + (i 3).val) = 192 * (i 1).val + 64 + (i 3).val; omega)

/-- The third run is the value: the projection at column offset 128. -/
theorem ref_v (x0 : (⟨S4x2048x1024, .f32⟩ : BufTy).Contents (Elt Ideal)) (x1 : (⟨S3072x1024, .f32⟩ : BufTy).Contents (Elt Ideal))
    (x2 : (⟨S3072, .f32⟩ : BufTy).Contents (Elt Ideal)) :
    val_main_v8 (F := Ideal) x0 x1 x2 = Cert.QkvSpec.proj 128 (by omega) x0 x1 x2 := by
  funext i
  rw [val_main_v8_apply]
  exact headMajor_apply x0 x1 x2 (idx_main_v8 i) ⟨(i 0).val, (i 0).isLt⟩ ⟨(i 1).val, (i 1).isLt⟩ ⟨(i 2).val, (i 2).isLt⟩ _
    rfl rfl rfl (by show 192 * (i 1).val + (128 + (i 3).val) = 192 * (i 1).val + 128 + (i 3).val; omega)

end Cert.ReferenceIdeal.RefValue

end
-- ==== Proof.lean ====
/-
  The fused q/k/v projection, kernel against reference, on the extended reals.

  Both programs compute y[bb, s, o] = Σ_k x[bb, s, k] · W[o, k] + b[o] and hand back its 3072 columns as 16 heads of
  192, each head cut into query, key and value of 64 columns: result entry [bb, h, s, e] of the part at column offset
  co ∈ {0, 64, 128} is y[bb, s, 192·h + co + e] (`QkvSpec.proj co`, Proof/Spec.lean).

  The kernel gets there tile by tile: at grid point (bb, st) it multiplies the 512-row tile of x by each head's 192-row
  slab of W (in a narrower float format, which is the identity here), adds the head's bias row, and stores the three
  64-column runs at [bb, h, 512·st …, :] (Proof/HeadMatmul, HeadPiece, Pieces: one store is one instance of one
  function; Proof/Blocks: the 16 blocks tile each result). The reference gets there by one contraction, a recast of the
  columns, a transpose and three slices (Proof/RefValue: division with remainder). Each sum is over the same index set
  in the same order of factors and the bias is added last on both sides, so the two sides are the SAME expression: no
  law of arithmetic is needed and the finiteness of the inputs is never used.

  The frames are the generated ones (the reference's is its generated run with the results dropped); the idealization
  rewrote nothing, so `preserves` is `True`.
-/
import proofs.«140509_j19722489823947_1_alg».proof.Defs
import proofs.«140509_j19722489823947_1_alg».proof.Proof.Gen.Kernel
import proofs.«140509_j19722489823947_1_alg».proof.Proof.Gen.Kernel.Skeleton
import proofs.«140509_j19722489823947_1_alg».proof.Proof.Gen.Kernel.Launch
import proofs.«140509_j19722489823947_1_alg».proof.Proof.Gen.Kernel.Points
import proofs.«140509_j19722489823947_1_alg».proof.Proof.Gen.Kernel.Frame
import proofs.«140509_j19722489823947_1_alg».proof.Proof.Gen.KernelIdeal
import proofs.«140509_j19722489823947_1_alg».proof.Proof.Gen.KernelIdeal.Skeleton
import proofs.«140509_j19722489823947_1_alg».proof.Proof.Gen.KernelIdeal.Launch
import proofs.«140509_j19722489823947_1_alg».proof.Proof.Gen.KernelIdeal.Points
import proofs.«140509_j19722489823947_1_alg».proof.Proof.Gen.KernelIdeal.Frame
import proofs.«140509_j19722489823947_1_alg».proof.Proof.Gen.ReferenceIdeal
import proofs.«140509_j19722489823947_1_alg».proof.Proof.Gen.Pre_finite_inputs
import proofs.«140509_j19722489823947_1_alg».proof.Proof.Gen.KernelIdeal.Value
import proofs.«140509_j19722489823947_1_alg».proof.Proof.Gen.ReferenceIdeal.Run
import proofs.«140509_j19722489823947_1_alg».proof.Proof.Gen.ReferenceIdeal.Read
import proofs.«140509_j19722489823947_1_alg».proof.Proof.Blocks
import proofs.«140509_j19722489823947_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is host operations only: its run, with what it says of the results dropped. -/
theorem frame_ref : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on x, W and b both programs end with query, key and value at the projection of the arguments
    at column offsets 0, 64, 128: the kernel by its blocks (Blocks.run), the reference by its layout operations read
    back (RefValue). -/
theorem algebraic : Cert.algebraic_KernelIdeal_ReferenceIdeal := by
  intro m ρ m' ρ' _ hagree
  refine ⟨_, _, _, Cert.KernelIdeal.Blocks.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [(hagree c).1, (hagree c).2.1, (hagree c).2.2, Cert.ReferenceIdeal.Read.val_main_v6_eq]
    exact Cert.ReferenceIdeal.RefValue.ref_q _ _ _
  · rw [(hagree c).1, (hagree c).2.1, (hagree c).2.2, Cert.ReferenceIdeal.Read.val_main_v7_eq]
    exact Cert.ReferenceIdeal.RefValue.ref_k _ _ _
  · rw [(hagree c).1, (hagree c).2.1, (hagree c).2.2, Cert.ReferenceIdeal.Read.val_main_v8_eq]
    exact Cert.ReferenceIdeal.RefValue.ref_v _ _ _

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
